-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S256x8192 .f32 .bf16
  ∧ IdealRules.truncf_extf.Statement Cert.KernelIdeal.S8192x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : IVec S8192 1 := cmpf .une main_v14 main_v15
  let main_c_6 : IVec S_ 1 := constantI S_ 1 1#1
  let main_v17 : IVec S_ 1 := (fun x v => Host.reduce IntOp.andi x v reducesTo_S8192_S_d0 h_S_) main_v16 main_c_6
  let main_v18 : IVec S_ 1 := andi main_v13 main_v17
  main_v18

def fn {F : FTy → Type} [FloatOps F] (main_arg0 : FVec F S8192x128 .f32) (main_arg1 : FVec F S8192x8192 .f32) (main_arg2 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg1 main_cst_4
  let main_cst_5 : FVec F S_ .f32 := constant S_ .f32 0x00000000#32
  let main_v15 : FVec F S8192 .f32 := broadcastInDim S8192 ![] bcast_S_S8192 main_cst_5
  fn_part1 (F := F) main_v13 main_v14 main_v15
-- ==== Kernel.lean ====
abbrev S8192x128 : Shape := ⟨2, ![8192, 128]⟩
abbrev S8192x8192 : Shape := ⟨2, ![8192, 8192]⟩
abbrev S128x128 : Shape := ⟨2, ![128, 128]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S8192x128, .f32⟩
  | .hbm, ⟨4, _⟩ => ⟨S8192x128, .f32⟩
  | .local _ .vmem, ⟨0, _⟩ => ⟨S256x8192, .f32⟩
  | .local _ .vmem, ⟨1, _⟩ => ⟨S256x8192, .f32⟩
  | .local _ .vmem, ⟨2, _⟩ => ⟨S8192x128, .f32⟩
  | .local _ .vmem, ⟨3, _⟩ => ⟨S256x128, .f32⟩
  | .local _ .vmem, ⟨4, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S256x8192_S256 : S256x8192.Reduces [1] S256
  shapeCasts_S256_S256x1 : S256.ShapeCasts S256x1
  bitsLt_bf16_f32 : FTy.bits .bf16 < FTy.bits .f32
  broadcasts_S256x1_S256x128 : S256x1.Broadcasts S256x128
  inb_S256x128_S256x128_0_0 : ∀ a, (![0, 0] : Fin 2 → Nat) a + S256x128.size a ≤ S256x128.size a
  h_S256x128 : 0 < S256x128.numel
  dot_S8192x128_S128x128_S8192x128_1_0_0_1_n_n_wf : DotDims.WF S8192x128 S128x128 S8192x128 [1] [0] [0] [1] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩
abbrev S8192 : Shape := ⟨1, ![8192]⟩
abbrev S8192x1 : Shape := ⟨2, ![8192, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Spec.lean ====
/-
  The mathematics of the row-normalised graph convolution, apart from any program.

  For an adjacency matrix `A` (8192 × 8192), features `x` (8192 × 128) and weights `W` (128 × 128), write
  `deg p = ∑ k, A p k` for the degree of row `p`. One program forms `B = x · W` first and then, per output entry,

      ( ∑ k, A p k · B k j  +  ∑ k, A p k · (B k j − B k j)  +  ∑ k, (A p k − A p k) · B k j ) / deg p

  — the matrix product split into a leading part and two correction parts, each factor's correction being the factor
  minus itself, which is zero on the reals — while the other forms `(A · x) / deg` row by row and multiplies by `W`:

      ∑ d, ((∑ k, A p k · x k d) / deg p) · W d j.

  On finite entries with a nonzero degree both are `(∑ k, ∑ d, A p k · x k d · W d j) / deg p`: the correction sums
  vanish, and a division by a nonzero real is a product with its reciprocal, which moves across the finite sums.
  Finiteness is used twice: so that `a − a = 0` (false at the infinities), and so that the products distribute.
  The nonzero degree is what makes the quotient the product with a reciprocal at all.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The adjacency matrix's, the features' (and the result's), and the weights' shapes. -/
abbrev SA : Shape := ⟨2, ![8192, 8192]⟩
abbrev SX : Shape := ⟨2, ![8192, 128]⟩
abbrev SW : Shape := ⟨2, ![128, 128]⟩

/-- Entry `(k, j)` of the product `x · W`. -/
def xw (x : SX.Idx → EReal) (W : SW.Idx → EReal) (k : Fin 8192) (j : Fin 128) : EReal :=
  ∑ d : Fin 128, x (ix2 k d) * W (ix2 d j)

/-- The split product of row `p` of `A` with column `j` of a matrix `B`, over the row's degree. -/
def splitEntry (A : SA.Idx → EReal) (B : Fin 8192 → Fin 128 → EReal) (p : Fin 8192) (j : Fin 128) : EReal :=
  Ideal.div
    ((∑ k : Fin 8192, A (ix2 p k) * B k j + ∑ k : Fin 8192, A (ix2 p k) * (B k j - B k j))
      + ∑ k : Fin 8192, (A (ix2 p k) - A (ix2 p k)) * B k j)
    (∑ k : Fin 8192, A (ix2 p k))

/-- Row `p` of `A · x` over the row's degree, times column `j` of `W`. -/
def normEntry (A : SA.Idx → EReal) (x : SX.Idx → EReal) (W : SW.Idx → EReal) (p : Fin 8192) (j : Fin 128) : EReal :=
  ∑ d : Fin 128, Ideal.div (∑ k : Fin 8192, A (ix2 p k) * x (ix2 k d)) (∑ k : Fin 8192, A (ix2 p k)) * W (ix2 d j)

/-- A finite sum of reals, read in the extended reals, is the sum of the readings. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The law, over any finite index types: on real entries with a nonzero row sum the split product over the sum
    is the normalised row times the column. -/
theorem split_eq_norm {K D : Type} [Fintype K] [Fintype D] (a : K → ℝ) (X : K → D → ℝ) (w : D → ℝ)
    (hs : ∑ k, a k ≠ 0) :
    Ideal.div
      ((∑ k, (a k : EReal) * ∑ d, (X k d : EReal) * (w d : EReal)
          + ∑ k, (a k : EReal) * ((∑ d, (X k d : EReal) * (w d : EReal)) - ∑ d, (X k d : EReal) * (w d : EReal)))
        + ∑ k, ((a k : EReal) - (a k : EReal)) * ∑ d, (X k d : EReal) * (w d : EReal))
      (∑ k, (a k : EReal))
    = ∑ d, Ideal.div (∑ k, (a k : EReal) * (X k d : EReal)) (∑ k, (a k : EReal)) * (w d : EReal) := by
  simp only [← EReal.coe_mul, coe_sum, ← EReal.coe_sub, ← EReal.coe_add, Ideal.div_coe hs]
  rw [EReal.coe_eq_coe_iff]
  simp only [sub_self, mul_zero, zero_mul, Finset.sum_const_zero, add_zero, Finset.mul_sum, Finset.sum_mul]
  rw [Finset.sum_comm]
  exact Finset.sum_congr rfl fun d _ => Finset.sum_congr rfl fun k _ => by ring

/-- The two entries agree where the three arrays hold reals and the row's degree is not zero. -/
theorem splitEntry_eq_normEntry (A : SA.Idx → EReal) (x : SX.Idx → EReal) (W : SW.Idx → EReal)
    (hA : ∀ i, ∃ r : ℝ, A i = (r : EReal)) (hx : ∀ i, ∃ r : ℝ, x i = (r : EReal)) (hW : ∀ i, ∃ r : ℝ, W i = (r : EReal))
    (p : Fin 8192) (hdeg : ∑ k : Fin 8192, A (ix2 p k) ≠ 0) (j : Fin 128) :
    splitEntry A (xw x W) p j = normEntry A x W p j := by
  choose a ha using hA
  choose xr hxr using hx
  choose wr hwr using hW
  have hs : ∑ k : Fin 8192, a (ix2 p k) ≠ 0 := by
    intro h0
    apply hdeg
    simp only [ha, coe_sum, h0, EReal.coe_zero]
  unfold splitEntry normEntry xw
  simp only [ha, hxr, hwr]
  exact split_eq_norm (fun k => a (ix2 p k)) (fun k d => xr (ix2 k d)) (fun d => wr (ix2 d j)) hs

end Cert.Gcn

end
-- ==== Proof.PreDecode.lean ====
/-
  What the precondition says of the three input arrays.

  The precondition is the conjunction of four tests: for each of `x`, `A` and `W`, that every entry's absolute value
  is below `+∞`, and that the sum of every row of `A` differs from zero. Each test is a reduction by `and` over all
  indices, so where the conjunction is 1 every index passes its test. On the extended reals an entry whose absolute
  value is below `+∞` is a real number (at `−∞` and at `+∞` the absolute value is `+∞` itself), and the host's sum of a
  row from the zero word is the sum of the row's entries.
-/
import proofs.«426847_j51694226375550_3_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Gcn.Pre

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-- The word `0x7F800000` denotes `+∞`. -/
theorem inf_word : Ideal.ofBits .f32 0x7F800000#32 = ⊤ := by simp [Ideal.ofBits, Ideal.ieee]

/-- An extended real whose absolute value is below `+∞` is a real number. -/
theorem real_of_abs_lt (a : EReal)
    (h : Ideal.cmp .olt (max a (-a)) (Ideal.ofBits .f32 0x7F800000#32) = 1#1) : ∃ r : ℝ, a = (r : EReal) := by
  rw [inf_word] at h
  induction a using EReal.rec with
  | bot => simp [Ideal.cmp] at h
  | top => simp [Ideal.cmp] at h
  | coe r => exact ⟨r, rfl⟩

/-- The host's sum of row `p` of `A`, started from the zero word, is the sum of the row's entries. -/
theorem row_sum_host (A : FVec Ideal S8192x8192 .f32) (p : Fin 8192) :
    Host.reduceAdd (F := Ideal) A (constant (F := Ideal) S_ .f32 0x00000000#32) reducesTo_S8192x8192_S8192_d1 h_S_ (ix1 p)
      = ∑ k : Fin 8192, A (ix2 p k) := by
  simp only [Host.reduceAdd, Ideal.hostReduceAdd_def]
  rw [Ideal.hostReduceAdd_single reducesTo_S8192x8192_S8192_d1 (by decide)]
  show Ideal.ofBits .f32 0x00000000#32 + _ = _
  rw [Ideal.ofBits_zero_f32, zero_add]
  exact Finset.sum_congr rfl fun k _ => congrArg A (funext fun a => Fin.ext (by
    match a with
    | ⟨0, _⟩ => rfl
    | ⟨1, _⟩ => rfl))

/-- Where the precondition holds, the three arrays hold real numbers and no row of `A` sums to zero. -/
theorem decode (x : FVec Ideal S8192x128 .f32) (A : FVec Ideal S8192x8192 .f32) (W : FVec Ideal S128x128 .f32)
    (h : fn (F := Ideal) x A W = fun _ => 1#1) :
    (∀ i, ∃ r : ℝ, x i = (r : EReal)) ∧ (∀ i, ∃ r : ℝ, A i = (r : EReal)) ∧ (∀ i, ∃ r : ℝ, W i = (r : EReal))
      ∧ ∀ p : Fin 8192, ∑ k : Fin 8192, A (ix2 p k) ≠ 0 := by
  have h0 := congrFun h ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  refine ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i), fun p => ?_⟩
  have hp := Host.reduce_andi_all _ _ _ _ _ h17 (ix1 p)
  have hp' : Ideal.cmp .une
      (Host.reduceAdd (F := Ideal) A (constant (F := Ideal) S_ .f32 0x00000000#32) reducesTo_S8192x8192_S8192_d1 h_S_ (ix1 p))
      (Ideal.ofBits .f32 0x00000000#32) = 1#1 := hp
  rw [row_sum_host, Ideal.ofBits_zero_f32] at hp'
  intro hz
  rw [hz] at hp'
  simp [Ideal.cmp] at hp'

end Cert.Gcn.Pre

end
-- ==== Proof.RefValue.lean ====
/-
  The reference's result, entry by entry.

  The reference sums each row of the adjacency matrix into its degree, multiplies the matrix by the features,
  divides row `p` of that product by the degree of row `p`, and multiplies by the weights. Read at entry `(p, j)`
  its last stage is therefore the sum over `d` of `((∑ k, A p k · x k d) / deg p) · W d j`, the host's sum
  starting from the zero word, which is the real zero.
-/
import proofs.«426847_j51694226375550_3_alg».proof.Proof.Gen.ReferenceIdeal.Read
import proofs.«426847_j51694226375550_3_alg».proof.Proof.Spec

noncomputable section

namespace Cert.Gcn.Ref

open Cert.ReferenceIdeal Cert.ReferenceIdeal.Gen Cert.ReferenceIdeal.Read Idealize.ShloMosaic Idealize.ShloMosaic.ValueIdx

/-- The reference's last stage at entry `(p, j)` is the normalised row `p` of `A · x` times column `j` of `W`. -/
theorem stage_entry (x : (⟨S8192x128, .f32⟩ : BufTy).Contents (Elt Ideal)) (A : (⟨S8192x8192, .f32⟩ : BufTy).Contents (Elt Ideal))
    (W : (⟨S128x128, .f32⟩ : BufTy).Contents (Elt Ideal)) (p : Fin 8192) (j : Fin 128) :
    val_main_v5 (F := Ideal) x A W (ix2 p j) = Cert.Gcn.normEntry A x W p j := by
  -- the composed index functions of the stages are the plain coordinates
  have e5l : ∀ d : Fin 128, lidx_main_v5 (ix2 p j) d = ix2 p d := fun d =>
    funext fun a => Fin.ext (by match a with | ⟨0, _⟩ => rfl | ⟨1, _⟩ => rfl)
  have e5r : ∀ d : Fin 128, ridx_main_v5 (ix2 p j) d = ix2 d j := fun d =>
    funext fun a => Fin.ext (by match a with | ⟨0, _⟩ => rfl | ⟨1, _⟩ => rfl)
  have e2l : ∀ (d : Fin 128) (k : Fin 8192), lidx_main_v2 (ix2 p d) k = ix2 p k := fun d k =>
    funext fun a => Fin.ext (by match a with | ⟨0, _⟩ => rfl | ⟨1, _⟩ => rfl)
  have e2r : ∀ (d : Fin 128) (k : Fin 8192), ridx_main_v2 (ix2 p d) k = ix2 k d := fun d k =>
    funext fun a => Fin.ext (by match a with | ⟨0, _⟩ => rfl | ⟨1, _⟩ => rfl)
  have e0 : ∀ (d : Fin 128) (k : Fin 8192), idx_main_v0 (idx_main_v1 (idx_main_v3 (ix2 p d))) k = ix2 p k := fun d k =>
    funext fun a => Fin.ext (by match a with | ⟨0, _⟩ => rfl | ⟨1, _⟩ => rfl)
  unfold Cert.Gcn.normEntry
  rw [val_main_v5_apply]
  refine Finset.sum_congr rfl fun d _ => ?_
  rw [e5l, e5r, val_main_v4_apply, val_main_v2_apply, val_main_v3_apply, val_main_v1_apply, val_main_v0_apply,
    val_main_cst_apply]
  simp only [e2l, e2r, e0, Ideal.hostDivf_def, Ideal.ofBits_def, Ideal.ofBits_zero_f32, zero_add]

end Cert.Gcn.Ref

end
-- ==== Proof.KernelPayload.lean ====
/-
  The kernel body's arithmetic, read at one entry of its output block.

  The body loads a block of 256 rows of the adjacency matrix and the whole product `B = x · W`. It sums each loaded
  row (the row's degree, kept as a column), forms the matrix product of the block with `B` in three parts — the block
  times `B`, the block times `B − B`, and the block minus itself times `B`; a change of float format is the identity
  on the extended reals, so the narrowed copies are the values themselves — adds the three, and divides each row by its
  degree. At entry `(r, j)` of the block that is the split product of row `r` with column `j` over the sum of row `r`.
  Before the call the host multiplies `x` by `W`; its entry `(k, j)` is the sum over `d` of `x k d · W d j`.
-/
import proofs.«426847_j51694226375550_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.Gcn.Ker

open Cert.KernelIdeal Cert.KernelIdeal.Gen Idealize.ShloMosaic.ValueIdx

/-! ## A column kept beside a matrix -/

/-- A vector of length `a` cast to an `a × 1` column reads, at `(i, u)`, the vector at `i`. -/
theorem column_cast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along the rows of an `a × b` matrix reads, at `(i, j)`, the column at `i`. -/
theorem column_broadcast_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The degree of a row of the block -/

/-- The block's sum along its second axis, at row `r`, is the sum of that row's 8192 entries. -/
theorem row_sum_apply (v : FVec Ideal S256x8192 .f32) (h : S256x8192.Reduces [1] S256) (hφ : FKind.Formats .f32)
    (hacc : (0x00000000#32 : BitVec 32) = FKind.add.neutral .f32 hφ) (r : Fin 256) :
    multiReduction .add [1] S256 v 0x00000000#32 h hφ hacc (ix1 r) = ∑ k : Fin 8192, v (ix2 r k) :=
  (Ideal.multiReduction_add_single v 0x00000000#32 h hφ hacc (ix1 r)).trans
    (Finset.sum_congr rfl fun k _ => congrArg v (funext fun a => Fin.ext (by
      match a with
      | ⟨0, _⟩ => rfl
      | ⟨1, _⟩ => rfl)))

/-! ## The block times a matrix, at an entry -/

theorem block_lhs_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem block_lhs_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
theorem block_rhs_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
theorem block_rhs_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- The matrix unit's product of a 256 × 8192 block with an 8192 × 128 matrix into the zero accumulator, at entry
    `(r, j)`: the sum over `k` of the block at `(r, k)` times the matrix at `(k, j)`. -/
theorem block_product_apply (l : FVec Ideal S256x8192 .bf16) (b : FVec Ideal S8192x128 .bf16) (r : Fin 256) (j : Fin 128) :
    matmul dot_S256x8192_S8192x128_S256x128_1_0_0_1_n_n none l b (constant (F := Ideal) S256x128 .f32 0x00000000#32) (ix2 r j)
      = ∑ k : Fin 8192, (l (ix2 r k) : EReal) * (b (ix2 k j) : EReal) := by
  simp only [matmul]
  rw [Ideal.matmul_constant_zero_apply, ← Equiv.sum_comp (ValueIdx.contrEquiv1 dot_S256x8192_S8192x128_S256x128_1_0_0_1_n_n 8192 rfl rfl).symm]
  refine Finset.sum_congr rfl fun k _ => ?_
  have hk := ValueIdx.contrEquiv1_symm_val dot_S256x8192_S8192x128_S256x128_1_0_0_1_n_n 8192 rfl rfl k
  have el : dot_S256x8192_S8192x128_S256x128_1_0_0_1_n_n.lhsIdx (ix2 r j) ((ValueIdx.contrEquiv1 dot_S256x8192_S8192x128_S256x128_1_0_0_1_n_n 8192 rfl rfl).symm k) = ix2 r k := funext fun a => Fin.ext (by
    match a with
    | ⟨0, _⟩ => exact block_lhs_0 _ _
    | ⟨1, _⟩ => exact (block_lhs_1 _ _).trans hk)
  have er : dot_S256x8192_S8192x128_S256x128_1_0_0_1_n_n.rhsIdx (ix2 r j) ((ValueIdx.contrEquiv1 dot_S256x8192_S8192x128_S256x128_1_0_0_1_n_n 8192 rfl rfl).symm k) = ix2 k j := funext fun a => Fin.ext (by
    match a with
    | ⟨0, _⟩ => exact (block_rhs_0 _ _).trans hk
    | ⟨1, _⟩ => exact block_rhs_1 _ _)
  rw [el, er]

/-! ## The body's stored value at an entry -/

/-- Entry `(r, j)` of what the body stores: the three partial products of row `r` of the block with column `j` of the
    second operand, added, over the sum of row `r`. -/
theorem stored_apply (v0 : FVec Ideal S256x8192 .f32) (v1 : FVec Ideal S8192x128 .f32) (r : Fin 256) (j : Fin 128) :
    k0_pay1 (F := Ideal) v0 v1 (ix2 r j)
      = Ideal.div
          ((∑ k : Fin 8192, v0 (ix2 r k) * v1 (ix2 k j) + ∑ k : Fin 8192, v0 (ix2 r k) * (v1 (ix2 k j) - v1 (ix2 k j)))
            + ∑ k : Fin 8192, (v0 (ix2 r k) - v0 (ix2 r k)) * v1 (ix2 k j))
          (∑ k : Fin 8192, v0 (ix2 r k)) := by
  unfold k0_pay1
  dsimp only
  rw [divf_apply, addf_apply, addf_apply, block_product_apply, block_product_apply, block_product_apply,
    column_broadcast_apply, column_cast_apply, shapeCast_self]
  refine congrArg₂ Ideal.div ?_ (row_sum_apply v0 _ _ _ r)
  rfl

/-! ## The host's product before the call -/

theorem host_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem host_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem host_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem host_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The host's product `x · W` at entry `(k, j)`: the sum over `d` of `x` at `(k, d)` times `W` at `(d, j)`. -/
theorem host_product_apply (x : FVec Ideal S8192x128 .f32) (W : FVec Ideal S128x128 .f32) (k : Fin 8192) (j : Fin 128) :
    Host.dotGeneral (F := Ideal) dot_S8192x128_S128x128_S8192x128_1_0_0_1_n_n (some .fp32) x W (ix2 k j)
      = ∑ d : Fin 128, x (ix2 k d) * W (ix2 d j) := by
  simp only [Host.dotGeneral]
  rw [Ideal.dotGeneral_apply, ← Equiv.sum_comp (ValueIdx.contrEquiv1 dot_S8192x128_S128x128_S8192x128_1_0_0_1_n_n 128 rfl rfl).symm]
  refine Finset.sum_congr rfl fun d _ => ?_
  have hd := ValueIdx.contrEquiv1_symm_val dot_S8192x128_S128x128_S8192x128_1_0_0_1_n_n 128 rfl rfl d
  have el : dot_S8192x128_S128x128_S8192x128_1_0_0_1_n_n.lhsIdx (ix2 k j) ((ValueIdx.contrEquiv1 dot_S8192x128_S128x128_S8192x128_1_0_0_1_n_n 128 rfl rfl).symm d) = ix2 k d := funext fun a => Fin.ext (by
    match a with
    | ⟨0, _⟩ => exact host_lhs_0 _ _
    | ⟨1, _⟩ => exact (host_lhs_1 _ _).trans hd)
  have er : dot_S8192x128_S128x128_S8192x128_1_0_0_1_n_n.rhsIdx (ix2 k j) ((ValueIdx.contrEquiv1 dot_S8192x128_S128x128_S8192x128_1_0_0_1_n_n 128 rfl rfl).symm d) = ix2 d j := funext fun a => Fin.ext (by
    match a with
    | ⟨0, _⟩ => exact (host_rhs_0 _ _).trans hd
    | ⟨1, _⟩ => exact host_rhs_1 _ _)
  rw [el, er]

end Cert.Gcn.Ker

end
-- ==== Proof.KernelValue.lean ====
/-
  The kernel's result array, from what each grid point writes back.

  The call runs over 32 grid points. Point `t` is handed rows `256·t … 256·t + 255` of the adjacency matrix `A` and the
  whole of `B = x · W` (which the host computed before the call), and writes back rows `256·t … 256·t + 255` of the
  result. So entry `(r, j)` of the block point `t` writes is the split product of row `256·t + r` of `A` with column `j`
  of `B`, over that row's degree: block `t` of ONE function of the whole arrays. The 32 blocks cover all 8192 rows
  (row `p` lies in block `p / 256`), so after the run the result array is that function.
-/
import proofs.«426847_j51694226375550_3_alg».proof.Proof.Gen.KernelIdeal.Value
import proofs.«426847_j51694226375550_3_alg».proof.Proof.KernelPayload
import proofs.«426847_j51694226375550_3_alg».proof.Proof.Spec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.Gcn.Ker

open Cert.KernelIdeal Cert.KernelIdeal.Gen Cert.KernelIdeal.Value Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The three argument arrays as launched: the adjacency matrix, the features, the weights. -/
abbrev argA (c : Dev nD) : FVec Ideal S8192x8192 .f32 := m ((c : Thread nD τ).loc main_arg1)
abbrev argX (c : Dev nD) : FVec Ideal S8192x128 .f32 := m ((c : Thread nD τ).loc main_arg0)
abbrev argW (c : Dev nD) : FVec Ideal S128x128 .f32 := m ((c : Thread nD τ).loc main_arg2)

/-- What the result array ends holding: at `(p, j)` the split product of row `p` of `A` with column `j` of `x · W`, over
    the degree of row `p`. -/
def result (c : Dev nD) : S8192x128.Idx → EReal := fun i =>
  Cert.Gcn.splitEntry (argA m c) (Cert.Gcn.xw (argX m c) (argW m c)) ⟨(i 0).val, (i 0).isLt⟩ ⟨(i 1).val, (i 1).isLt⟩

/-- Where each window's block sits at point `t`, decided over the 32 points: the adjacency block and the output block
    are block-row `t`; the product `x · W` is always its one whole block. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s block is row `256·t + r` of the array. -/
def rowAt (t : Fin cfg0.N) (r : Fin 256) : Fin 8192 :=
  ⟨t.val * 256 + r.val, by have hN : grid0.N = 32 := N_0; have ht : t.val < grid0.N := t.isLt; have := r.isLt; omega⟩

/-- The array the host's product leaves for the call, at `(k, j)`: entry `(k, j)` of `x · W`. -/
theorem product_entry (c : Dev nD) (k : Fin 8192) (j : Fin 128) :
    (V m c main_v0 : S8192x128.Idx → EReal) (ix2 k j) = Cert.Gcn.xw (argX m c) (argW m c) k j := by
  have e : (V m c main_v0 : S8192x128.Idx → EReal)
      = Host.dotGeneral (F := Ideal) dot_S8192x128_S128x128_S8192x128_1_0_0_1_n_n (some .fp32) (argX m c) (argW m c) := by
    dsimp only [V, hostOps0]; after_results
  rw [e, host_product_apply]
  rfl

/-- The adjacency window's block at point `t`, at `(r, k)`: the matrix at row `256·t + r`, column `k`. -/
theorem adjacency_block_apply (c : Dev nD) (t : Fin cfg0.N) (r : Fin 256) (k : Fin 8192) :
    (iblk m c 0 t : S256x8192.Idx → EReal) (ix2 r k) = argA m c (ix2 (rowAt t r) k) := by
  obtain ⟨e00, e01, -⟩ := block_places t
  unfold iblk
  rw [View.read_apply]
  show V m c main_arg1 _ = m ((c : Thread nD τ).loc main_arg1) _
  rw [V_main_arg1]
  congr 1
  funext a
  apply Fin.ext
  match a with
  | ⟨0, _⟩ => show win0_0.index t 0 * 256 + 1 * r.val = t.val * 256 + r.val; rw [e00]; omega
  | ⟨1, _⟩ => show win0_0.index t 1 * 8192 + 1 * k.val = k.val; rw [e01]; omega

/-- The product window's block at any point, at `(k, j)`: entry `(k, j)` of `x · W`. -/
theorem product_block_apply (c : Dev nD) (t : Fin cfg0.N) (k : Fin 8192) (j : Fin 128) :
    (iblk m c 1 t : S8192x128.Idx → EReal) (ix2 k j) = Cert.Gcn.xw (argX m c) (argW m c) k j := by
  obtain ⟨-, -, e10, e11, -⟩ := block_places t
  unfold iblk
  rw [View.read_apply]
  refine Eq.trans ?_ (product_entry m c k j)
  show V m c main_v0 _ = V m c main_v0 _
  congr 1
  funext a
  apply Fin.ext
  match a with
  | ⟨0, _⟩ => show win0_1.index t 0 * 8192 + 1 * k.val = k.val; rw [e10]; omega
  | ⟨1, _⟩ => show win0_1.index t 1 * 128 + 1 * j.val = j.val; rw [e11]; omega

/-- WHAT POINT `t` WRITES BACK is block `t` of `result`. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero zero_offsets]
  simp only [View.ld_unit_zero (S := S256x8192) zero_offsets, View.ld_unit_zero (S := S8192x128) zero_offsets]
  obtain ⟨-, -, -, -, e20, e21⟩ := block_places t
  funext y
  obtain ⟨r, j, rfl⟩ : ∃ (r : Fin 256) (j : Fin 128), y = ix2 r j := ⟨y 0, y 1, eq_ix2 y⟩
  show k0_pay1 (F := Ideal) (iblk m c 0 t) (iblk m c 1 t) (ix2 r j)
    = result m c (((cfg0.win 2).blk t).view.emb (ix2 r j))
  refine (stored_apply (iblk m c 0 t) (iblk m c 1 t) r j).trans ?_
  have hrow : (⟨((((cfg0.win 2).blk t).view.emb (ix2 r j)) 0).val, ((((cfg0.win 2).blk t).view.emb (ix2 r j)) 0).isLt⟩ : Fin 8192) = rowAt t r :=
    Fin.ext (by show win0_2.index t 0 * 256 + 1 * r.val = t.val * 256 + r.val; rw [e20]; omega)
  have hcol : (⟨((((cfg0.win 2).blk t).view.emb (ix2 r j)) 1).val, ((((cfg0.win 2).blk t).view.emb (ix2 r j)) 1).isLt⟩ : Fin 128) = j :=
    Fin.ext (by show win0_2.index t 1 * 128 + 1 * j.val = j.val; rw [e21]; omega)
  unfold result
  dsimp only
  rw [hrow, hcol]
  unfold Cert.Gcn.splitEntry
  simp only [adjacency_block_apply, product_block_apply]

/-- An index of the result array is in point `t`'s block iff each coordinate is in the block's range on its axis. -/
theorem mem_block (t : Fin cfg0.N) (i : S8192x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v1).slice (win0_2.rect t)).set ↔ _
  rw [View.set_slice_whole, Rect.mem_set_unit]
  exact Iff.rfl

/-- Every index of the result array is in the block of the point its row falls in. -/
theorem covered (i : S8192x128.Idx) :
    ∃ t : Fin cfg0.N, (cfg0.win 2).flush t = true ∧ i ∈ ((cfg0.win 2).blk t).view.set := by
  have hN : grid0.N = 32 := N_0
  have hi0 : (i 0).val < 8192 := (i 0).isLt
  have hi1 : (i 1).val < 128 := (i 1).isLt
  let t : Fin cfg0.N := ⟨(i 0).val / 256, by show (i 0).val / 256 < grid0.N; omega⟩
  obtain ⟨-, -, -, -, e20, e21⟩ := block_places t
  have ht : t.val = (i 0).val / 256 := rfl
  refine ⟨t, flush0_2 t, ?_⟩
  rw [mem_block]
  intro a
  match a with
  | ⟨0, _⟩ => show win0_2.index t 0 * 256 ≤ (i 0).val ∧ (i 0).val < win0_2.index t 0 * 256 + 256; rw [e20, ht]; omega
  | ⟨1, _⟩ => show win0_2.index t 1 * 128 ≤ (i 1).val ∧ (i 1).val < win0_2.index t 1 * 128 + 128; rw [e21]; omega

/-- THE RESULT ARRAY after the run is `result`. -/
theorem final (c : Dev nD) : (dats m 0 c).arrAt 2 cfg0.N = result m c :=
  (dats m 0 c).arrAt_eq_of_cover 2 (result m c) (fun t _ => flushed_eq m c t) covered

/-- The run, read: the result array at `result`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Gcn.Ker

end
-- ==== Proof.lean ====
/-
  A graph-convolution layer: each node's new features are the degree-normalised sum of its neighbours' features,
  passed through a weight matrix. With `A` the adjacency matrix, `x` the features, `W` the weights and
  `deg p = ∑ k, A p k`, the reference computes `((A · x) / deg) · W`, dividing row `p` of `A · x` by `deg p`. The kernel
  computes `B = x · W` first and then `(A · B) / deg`, 256 rows at a time, forming `A · B` as the sum of three matrix
  products: a leading one and two corrections in which one factor is replaced by its own narrowing error (the factor
  minus its narrowed copy). On the extended reals narrowing is the identity, so each correction has a zero factor.

  The two results agree where the entries are real numbers and no degree is zero (Proof/Spec.lean): the corrections
  vanish, division by a nonzero real is multiplication by its reciprocal, and the finite sums distribute and commute.
  Both hypotheses come from the precondition (Proof/PreDecode.lean): every entry finite, and every row of `A` with a
  nonzero sum — where a row sums to zero the reference itself divides by zero. The kernel's result array is read off
  its run block by block (Proof/KernelPayload.lean, Proof/KernelValue.lean), the reference's off its run stage by stage
  (Proof/RefValue.lean). That the idealised kernel is the kernel's idealisation is the narrowing rule, stated twice:
  once for the adjacency block and once for `B`.
-/
import proofs.«426847_j51694226375550_3_alg».proof.Defs
import proofs.«426847_j51694226375550_3_alg».proof.Proof.Gen.Kernel
import proofs.«426847_j51694226375550_3_alg».proof.Proof.Gen.Kernel.Skeleton
import proofs.«426847_j51694226375550_3_alg».proof.Proof.Gen.Kernel.Launch
import proofs.«426847_j51694226375550_3_alg».proof.Proof.Gen.Kernel.Points
import proofs.«426847_j51694226375550_3_alg».proof.Proof.Gen.Kernel.Frame
import proofs.«426847_j51694226375550_3_alg».proof.Proof.Gen.KernelIdeal
import proofs.«426847_j51694226375550_3_alg».proof.Proof.Gen.KernelIdeal.Skeleton
import proofs.«426847_j51694226375550_3_alg».proof.Proof.Gen.KernelIdeal.Launch
import proofs.«426847_j51694226375550_3_alg».proof.Proof.Gen.KernelIdeal.Points
import proofs.«426847_j51694226375550_3_alg».proof.Proof.Gen.KernelIdeal.Frame
import proofs.«426847_j51694226375550_3_alg».proof.Proof.Gen.ReferenceIdeal
import proofs.«426847_j51694226375550_3_alg».proof.Proof.Gen.Pre_finite_inputs
import proofs.«426847_j51694226375550_3_alg».proof.Proof.Gen.KernelIdeal.Value
import proofs.«426847_j51694226375550_3_alg».proof.Proof.Gen.ReferenceIdeal.Run
import proofs.«426847_j51694226375550_3_alg».proof.Proof.Gen.ReferenceIdeal.Read
import proofs.«426847_j51694226375550_3_alg».proof.Proof.Spec
import proofs.«426847_j51694226375550_3_alg».proof.Proof.PreDecode
import proofs.«426847_j51694226375550_3_alg».proof.Proof.RefValue
import proofs.«426847_j51694226375550_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the idealised kernel. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on the extended reals, for the adjacency block and for the
    product `x · W`. -/
theorem preserves : Cert.preserves_Kernel_KernelIdeal :=
  ⟨IdealRules.truncf_extf.statement Cert.KernelIdeal.S256x8192 .f32 .bf16,
    IdealRules.truncf_extf.statement Cert.KernelIdeal.S8192x128 .f32 .bf16⟩

/-- Both programs end with the same array: at `(p, j)` the kernel leaves the split product of row `p` of `A` with column
    `j` of `x · W` over `deg p`, the reference the normalised row `p` of `A · x` times column `j` of `W`; under the
    precondition these are one number. -/
theorem algebraic : Cert.algebraic_KernelIdeal_ReferenceIdeal := by
  intro m ρ m' ρ' hpre hagree
  refine ⟨fun c => Cert.Gcn.Ker.result m c, Cert.Gcn.Ker.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v5_eq]
  obtain ⟨hx, hA, hW, hdeg⟩ := Cert.Gcn.Pre.decode _ _ _ (hpre c)
  funext i
  obtain ⟨p, j, rfl⟩ : ∃ (p : Fin 8192) (j : Fin 128), i = ix2 p j := ⟨i 0, i 1, eq_ix2 i⟩
  rw [Cert.Gcn.Ref.stage_entry]
  exact (Cert.Gcn.splitEntry_eq_normEntry _ _ _ hA hx hW p (hdeg p) j).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
